-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1536 : Shape := ⟨3, ![8, 4096, 1536]⟩
abbrev S8 : Shape := ⟨1, ![8]⟩
abbrev S4x1536x2048 : Shape := ⟨3, ![4, 1536, 2048]⟩
abbrev S4x2048 : Shape := ⟨2, ![4, 2048]⟩
abbrev S_ : Shape := ⟨0, ![]⟩

class Facts : Prop where
  bcast_S_S8x4096x1536 : S_.BroadcastsInDim S8x4096x1536 (![] : Fin 0 → Fin S8x4096x1536.rank)
  reducesTo_S8x4096x1536_S_d0_1_2 : S8x4096x1536.ReducesTo [0, 1, 2] S_
  h_S_ : 0 < S_.numel
  bcast_S_S4x1536x2048 : S_.BroadcastsInDim S4x1536x2048 (![] : Fin 0 → Fin S4x1536x2048.rank)
  reducesTo_S4x1536x2048_S_d0_1_2 : S4x1536x2048.ReducesTo [0, 1, 2] S_
  bcast_S_S4x2048 : S_.BroadcastsInDim S4x2048 (![] : Fin 0 → Fin S4x2048.rank)
  reducesTo_S4x2048_S_d0_1 : S4x2048.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg1 : IVec S8 32) (main_v13 : IVec S_ 1) (main_v15 : IVec S8 1) (main_c_5 : IVec S_ 32) : IVec S_ 1 :=
  let main_v16 : IVec S8 32 := broadcastInDim S8 ![] bcast_S_S8 main_c_5
  let main_v17 : IVec S8 1 := cmpi .slt main_arg1 main_v16
  let main_v18 : IVec S8 1 := andi main_v15 main_v17
  let main_c_6 : IVec S_ 1 := constantI S_ 1 1#1
  let main_v19 : IVec S_ 1 := (fun x v => Host.reduce IntOp.andi x v reducesTo_S8_S_d0 h_S_) main_v18 main_c_6
  let main_v20 : IVec S_ 1 := andi main_v13 main_v19
  main_v20

def fn {F : FTy → Type} [FloatOps F] (main_arg0 : FVec F S8x4096x1536 .f32) (main_arg1 : IVec S8 32) (main_arg2 : FVec F S4x1536x2048 .f32) (main_arg3 : FVec F S4x2048 .f32) : IVec S_ 1 :=
  let main_v0 : FVec F S8x4096x1536 .f32 := Host.absf main_arg0
  let main_cst : FVec F S_ .f32 := constant S_ .f32 0x7F800000#32
  let main_v1 : FVec F S8x4096x1536 .f32 := broadcastInDim S8x4096x1536 ![] bcast_S_S8x4096x1536 main_cst
  let main_v2 : IVec S8x4096x1536 1 := cmpf .olt main_v0 main_v1
  let main_c : IVec S_ 1 := constantI S_ 1 1#1
  let main_v3 : IVec S_ 1 := (fun x v => Host.reduce IntOp.andi x v reducesTo_S8x4096x1536_S_d0_1_2 h_S_) main_v2 main_c
  let main_v4 : FVec F S4x1536x2048 .f32 := Host.absf main_arg2
  let main_cst_0 : FVec F S_ .f32 := constant S_ .f32 0x7F800000#32
  let main_v5 : FVec F S4x1536x2048 .f32 := broadcastInDim S4x1536x2048 ![] bcast_S_S4x1536x2048 main_cst_0
  let main_v6 : IVec S4x1536x2048 1 := cmpf .olt main_v4 main_v5
  let main_c_1 : IVec S_ 1 := constantI S_ 1 1#1
  let main_v7 : IVec S_ 1 := (fun x v => Host.reduce IntOp.andi x v reducesTo_S4x1536x2048_S_d0_1_2 h_S_) main_v6 main_c_1
  let main_v8 : IVec S_ 1 := andi main_v3 main_v7
  let main_v9 : FVec F S4x2048 .f32 := Host.absf main_arg3
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  let main_c_4 : IVec S_ 32 := constantI S_ 32 0#32
  let main_v14 : IVec S8 32 := broadcastInDim S8 ![] bcast_S_S8 main_c_4
  let main_v15 : IVec S8 1 := cmpi .sge main_arg1 main_v14
  let main_c_5 : IVec S_ 32 := constantI S_ 32 4#32
  fn_part1 (F := F) main_arg1 main_v13 main_v15 main_c_5
-- ==== Kernel.lean ====
abbrev S8x4096x1536 : Shape := ⟨3, ![8, 4096, 1536]⟩
abbrev S8 : Shape := ⟨1, ![8]⟩
abbrev S4x1536x2048 : Shape := ⟨3, ![4, 1536, 2048]⟩
abbrev S4x2048 : Shape := ⟨2, ![4, 2048]⟩
abbrev S4x1x2048 : Shape := ⟨3, ![4, 1, 2048]⟩
abbrev S8x4096x2048 : Shape := ⟨3, ![8, 4096, 2048]⟩
abbrev S1x512x1536 : Shape := ⟨3, ![1, 512, 1536]⟩
abbrev S1x1536x2048 : Shape := ⟨3, ![1, 1536, 2048]⟩
abbrev S1 : Shape := ⟨1, ![1]⟩
abbrev S1x1x2048 : Shape := ⟨3, ![1, 1, 2048]⟩
abbrev S1x512x2048 : Shape := ⟨3, ![1, 512, 2048]⟩
abbrev S512x1536 : Shape := ⟨2, ![512, 1536]⟩
abbrev S1536x2048 : Shape := ⟨2, ![1536, 2048]⟩
abbrev S512x2048 : Shape := ⟨2, ![512, 2048]⟩
abbrev S1x2048 : Shape := ⟨2, ![1, 2048]⟩

abbrev nBuf : Space → Nat
  | .hbm => 6
  | .vmem => 8
  | .smem => 1
  | _ => 0

abbrev bufTy : (tb : Table) → Fin (tcTables nBuf tb) → BufTy
  | .hbm, ⟨0, _⟩ => ⟨S8x4096x1536, .f32⟩
  | .hbm, ⟨1, _⟩ => ⟨S4x1536x2048, .f32⟩
  | .hbm, ⟨2, _⟩ => ⟨S4x2048, .f32⟩
  | .hbm, ⟨3, _⟩ => ⟨S4x1536x2048, .bf16⟩
  | .hbm, ⟨4, _⟩ => ⟨S4x1x2048, .f32⟩
  | .hbm, ⟨5, _⟩ => ⟨S8x4096x2048, .f32⟩
  | .local _ .vmem, ⟨0, _⟩ => ⟨S1x512x1536, .f32⟩
  | .local _ .vmem, ⟨1, _⟩ => ⟨S1x512x1536, .f32⟩
  | .local _ .vmem, ⟨2, _⟩ => ⟨S1x1536x2048, .bf16⟩
  | .local _ .vmem, ⟨3, _⟩ => ⟨S1x1536x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x512x2048, .f32⟩
  | .local _ .vmem, ⟨7, _⟩ => ⟨S1x512x2048, .f32⟩
  | .local _ .smem, ⟨0, _⟩ => ⟨S8, .i32⟩
  | _, _ => ⟨S8x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  bcast_S4x2048_S4x1x2048_0_2 : S4x2048.BroadcastsInDim S4x1x2048 (![0, 2] : Fin 2 → Fin S4x1x2048.rank)
  numel1_S1 : S1.numel = 1
  inb_S1x512x1536_S1x512x1536_0_0_0 : ∀ a, (![0, 0, 0] : Fin 3 → Nat) a + S1x512x1536.size a ≤ S1x512x1536.size a
  h_S1x512x1536 : 0 < S1x512x1536.numel
  shapeCasts_S1x512x1536_S512x1536 : S1x512x1536.ShapeCasts S512x1536
  inb_S1x1536x2048_S1x1536x2048_0_0_0 : ∀ a, (![0, 0, 0] : Fin 3 → Nat) a + S1x1536x2048.size a ≤ S1x1536x2048.size a
  h_S1x1536x2048 : 0 < S1x1536x2048.numel
  shapeCasts_S1x1536x2048_S1536x2048 : S1x1536x2048.ShapeCasts S1536x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x1536_S1536x2048_S512x2048_1_0_0_1_n_n_wf : DotDims.WF S512x1536 S1536x2048 S512x2048 [1] [0] [0] [1] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1536.size a ≤ S8x4096x1536.size a
  hwx0_0 : ∀ i : grid0.Coords, EltTy.bits .f32 = 32 ∨ (Rect.block (s := S8x4096x1536) S1x512x1536.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x4096x2048.size a
  hwx0_3 : ∀ i : grid0.Coords, EltTy.bits .f32 = 32 ∨ (Rect.block (s := S8x4096x2048) S1x512x2048.size (cc0_transform_3 i) (hinb0_3 i)).WholeWords (EltTy.packing .f32)

variable [Facts₀]

def dot_S512x1536_S1536x2048_S512x2048_1_0_0_1_n_n : DotDims S512x1536 S1536x2048 S512x2048 where
  lhsContracting := [1]
  rhsContracting := [0]
  lhsNonContracting := [0]
  rhsNonContracting := [1]
  lhsBatch := []
  rhsBatch := []
  wf := dot_S512x1536_S1536x2048_S512x2048_1_0_0_1_n_n_wf

abbrev spec0_0 : Pipeline.WinSpec sig grid0.rank :=
  Pipeline.WinSpec.ofSpec (Memref.whole main_arg0) S1x512x1536.size reads0_0 false false 2 stage0_0 sem0_0 nbuf0_0 hstage0_0

abbrev spec0_1 : Pipeline.WinSpec sig grid0.rank :=
  Pipeline.WinSpec.ofSpec (Memref.whole main_v0) S1x1536x2048.size reads0_1 false false 2 stage0_1 sem0_1 nbuf0_1 hstage0_1

abbrev spec0_2 : Pipeline.WinSpec sig grid0.rank :=
  Pipeline.WinSpec.ofSpec (Memref.whole main_v1) S1x1x2048.size reads0_2 false false 2 stage0_2 sem0_2 nbuf0_2 hstage0_2

abbrev spec0_3 : Pipeline.WinSpec sig grid0.rank :=
  Pipeline.WinSpec.ofSpec (Memref.whole main_v2) S1x512x2048.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1536x2048.size a ≤ S4x1536x2048.size a), EltTy.bits .bf16 = 32 ∨ (Rect.block (s := S4x1536x2048) S1x1536x2048.size (cc0_transform_1 k0_off1_inb numel1_S1 pf i) h).WholeWords (EltTy.packing .bf16)) ∧
  (∀ i : grid0.Coords, ∃ h : (∀ a, (cc0_transform_2 k0_off1_inb numel1_S1 pf i a + 1) * S1x1x2048.size a ≤ S4x1x2048.size a), EltTy.bits .f32 = 32 ∨ (Rect.block (s := S4x1x2048) S1x1x2048.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S8x4096x1536 : Shape := ⟨3, ![8, 4096, 1536]⟩
abbrev S8 : Shape := ⟨1, ![8]⟩
abbrev S4x1536x2048 : Shape := ⟨3, ![4, 1536, 2048]⟩
abbrev S4x2048 : Shape := ⟨2, ![4, 2048]⟩
abbrev S_ : Shape := ⟨0, ![]⟩
abbrev S8x1 : Shape := ⟨2, ![8, 1]⟩
abbrev S8x1536x2048 : Shape := ⟨3, ![8, 1536, 2048]⟩
abbrev S8x2048 : Shape := ⟨2, ![8, 2048]⟩
abbrev S8x4096x2048 : Shape := ⟨3, ![8, 4096, 2048]⟩
abbrev S8x1x2048 : Shape := ⟨3, ![8, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x1536, .f32⟩
  | .hbm, ⟨1, _⟩ => ⟨S8, .i32⟩
  | .hbm, ⟨2, _⟩ => ⟨S4x1536x2048, .f32⟩
  | .hbm, ⟨3, _⟩ => ⟨S4x2048, .f32⟩
  | .hbm, ⟨4, _⟩ => ⟨S_, .i32⟩
  | .hbm, ⟨5, _⟩ => ⟨S8, .i32⟩
  | .hbm, ⟨6, _⟩ => ⟨S8, .i1⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S8, .i32⟩
  | .hbm, ⟨11, _⟩ => ⟨S8x1, .i32⟩
  | .hbm, ⟨12, _⟩ => ⟨S8x1536x2048, .f32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8, .i32⟩
  | .hbm, ⟨20, _⟩ => ⟨S8x1, .i32⟩
  | .hbm, ⟨21, _⟩ => ⟨S8x2048, .f32⟩
  | .hbm, ⟨22, _⟩ => ⟨S8x4096x2048, .f32⟩
  | .hbm, ⟨23, _⟩ => ⟨S8x1x2048, .f32⟩
  | .hbm, ⟨24, _⟩ => ⟨S8x4096x2048, .f32⟩
  | .hbm, ⟨25, _⟩ => ⟨S8x4096x2048, .f32⟩
  | _, _ => ⟨S8x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x1_0 : S8.BroadcastsInDim S8x1 (![0] : Fin 1 → Fin S8x1.rank)
  bcast_S8x2048_S8x1x2048_0_2 : S8x2048.BroadcastsInDim S8x1x2048 (![0, 2] : Fin 2 → Fin S8x1x2048.rank)
  bcast_S8x1x2048_S8x4096x2048_0_1_2 : S8x1x2048.BroadcastsInDim S8x4096x2048 (![0, 1, 2] : Fin 3 → Fin S8x4096x2048.rank)
  gather_S4x1536x2048_S8x1_S8x1536x2048_12_0_n_n_0_1_115362048_wf : GatherDims.WF S4x1536x2048 S8x1 S8x1536x2048 [1, 2] [0] [] [0] [] 1 ![1, 1536, 2048]
  gather_S4x2048_S8x1_S8x2048_1_0_n_n_0_1_12048_wf : GatherDims.WF S4x2048 S8x1 S8x2048 [1] [0] [] [0] [] 1 ![1, 2048]
  dot_S8x4096x1536_S8x1536x2048_S8x4096x2048_2_1_1_2_0_0_wf : DotDims.WF S8x4096x1536 S8x1536x2048 S8x4096x2048 [2] [1] [1] [2] [0] [0]

variable [Facts₀]

def gather_S4x1536x2048_S8x1_S8x1536x2048_12_0_n_n_0_1_115362048 : GatherDims S4x1536x2048 S8x1 S8x1536x2048 where
  offsetDims := [1, 2]
  collapsedSliceDims := [0]
  operandBatchingDims := []
  startIndicesBatchingDims := []
  startIndexMap := [0]
  indexVectorDim := 1
  sliceSizes := ![1, 1536, 2048]
  wf := gather_S4x1536x2048_S8x1_S8x1536x2048_12_0_n_n_0_1_115362048_wf
def gather_S4x2048_S8x1_S8x2048_1_0_n_n_0_1_12048 : GatherDims S4x2048 S8x1 S8x2048 where
  offsetDims := [1]
  collapsedSliceDims := [0]
  operandBatchingDims := []
  startIndicesBatchingDims := []
  startIndexMap := [0]
  indexVectorDim := 1
  sliceSizes := ![1, 2048]
  wf := gather_S4x2048_S8x1_S8x2048_1_0_n_n_0_1_12048_wf
def dot_S8x4096x1536_S8x1536x2048_S8x4096x2048_2_1_1_2_0_0 : DotDims S8x4096x1536 S8x1536x2048 S8x4096x2048 where
  lhsContracting := [2]
  rhsContracting := [1]
  lhsNonContracting := [1]
  rhsNonContracting := [2]
  lhsBatch := [0]
  rhsBatch := [0]
  wf := dot_S8x4096x1536_S8x1536x2048_S8x4096x2048_2_1_1_2_0_0_wf

class Facts : Prop extends Facts₀ where

variable [Facts]
-- ==== Proof.IndexRange.lean ====
/-
  What the precondition says of the index array: every one of its eight words is an organism number.

  The precondition's last conjunct is `all((0 ≤ index) ∧ (index < 4))`, the comparisons signed. A 32-bit word that is,
  read signed, at least 0 and below 4 is below 4 read as a natural number (a negative word would be at least 2^31
  unsigned). So under the precondition each word, as a natural number, is one of 0, 1, 2, 3 — at either reading of the
  floats, since the conjunct looks at the integer argument only.
-/
import proofs.«404798_j80315888435838_3_alg».proof.Pre_finite_inputs
import Idealize.ShloMosaic.Lib.ReduceAll

noncomputable section

namespace Cert.IndexRange

open Idealize.ShloMosaic Cert.Pre_finite_inputs

/-- A word in [0, 4) signed is below 4 unsigned. -/
theorem toNat_lt_four (v : BitVec 32) (h0 : IntOp.cmpi .sge v 0#32 = 1#1) (h4 : IntOp.cmpi .slt v 4#32 = 1#1) :
    v.toNat < 4 := by
  rw [IntOp.cmpi_sge] at h0
  rw [IntOp.cmpi_slt] at h4
  rw [show (0#32 : BitVec 32).toInt = 0 from by decide] at h0
  rw [show (4#32 : BitVec 32).toInt = 4 from by decide] at h4
  have hv := v.isLt
  rw [BitVec.toInt_eq_toNat_cond] at h0 h4
  split at h0 <;> omega

/-- The scalar shape has one index. -/
instance : Subsingleton S_.Idx := ⟨fun a b => funext fun d => d.elim0⟩

variable [Facts]

/-- Under the precondition every word of the index array is below 4. -/
theorem word_lt_four {F : FTy → Type} [FloatOps F] (x : FVec F S8x4096x1536 .f32) (o : IVec S8 32)
    (w : FVec F S4x1536x2048 .f32) (b : FVec F S4x2048 .f32) (h : fn (F := F) x o w b = fun _ => 1#1) (k : S8.Idx) :
    (o k).toNat < 4 := by
  have e := congrFun h (fun d => d.elim0)
  dsimp only [fn, fn_part1] at e
  -- the whole conjunction is 1, so its last conjunct, the `all` over the eight words, is 1
  have e19 := (IntOp.andi_eq_one.1 e).2
  -- so the test is 1 at word k
  have e18 := Host.reduce_andi_all _ _ _ _ _ e19 k
  obtain ⟨hge, hlt⟩ := IntOp.andi_eq_one.1 e18
  exact toNat_lt_four (o k) hge hlt

end Cert.IndexRange

end
-- ==== Proof.OkKernel.lean ====
/-
  The kernel's blocks of the weights and of the bias are named by the index words: at grid point (p, q) the
  weight block is block (index[p], 0, 0) of the [4, 1536, 2048] weights, cut in blocks [1, 1536, 2048], and the bias
  block is block (index[p], 0, 0) of the [4, 1, 2048] bias, cut in blocks [1, 1, 2048]. Such a block lies inside its
  array exactly when index[p] < 4, and under the precondition every index word is below 4 (IndexRange.lean). A
  [1, 1536, 2048] block of 16-bit elements takes every row of the one slab it meets, so its ends are whole words.
-/
import proofs.«404798_j80315888435838_3_alg».proof.Defs
import proofs.«404798_j80315888435838_3_alg».proof.Proof.Gen.Kernel.Frame
import proofs.«404798_j80315888435838_3_alg».proof.Proof.Gen.Pre_finite_inputs
import proofs.«404798_j80315888435838_3_alg».proof.Proof.IndexRange

set_option maxRecDepth 16384

noncomputable section

namespace Cert.Kernel.OkOfPre

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The table the region reads is the index array of the launch memory (no host operation writes it). -/
theorem table_eq : tbl m 0 = m (((0 : Dev nD) : Thread nD τ).loc main_arg1) := V_main_arg1 m 0

/-- A weight block at an organism number lies inside the weights, and its ends are whole words. -/
theorem weight_block (v : Fin 4) :
    ∃ h : (∀ a, ((![v.val, 0, 0] : Fin 3 → Nat) a + 1) * S1x1536x2048.size a ≤ S4x1536x2048.size a),
      EltTy.bits .bf16 = 32 ∨ (Rect.block (s := S4x1536x2048) S1x1536x2048.size ![v.val, 0, 0] h).WholeWords (EltTy.packing .bf16) := by
  fin_cases v <;> exact ⟨by decide, .inr (by decide)⟩

/-- A bias block at an organism number lies inside the bias; its elements are a word each. -/
theorem bias_block (v : Fin 4) :
    ∃ h : (∀ a, ((![v.val, 0, 0] : Fin 3 → Nat) a + 1) * S1x1x2048.size a ≤ S4x1x2048.size a),
      EltTy.bits .f32 = 32 ∨ (Rect.block (s := S4x1x2048) S1x1x2048.size ![v.val, 0, 0] h).WholeWords (EltTy.packing .f32) := by
  fin_cases v <;> exact ⟨by decide, .inl rfl⟩

/-- Under the precondition every word of the table is an organism number. -/
theorem table_lt
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) = fun _ => 1#1)
    (x : S8.Idx) : (tbl m 0 x).toNat < 4 := by
  rw [table_eq]
  exact Cert.IndexRange.word_lt_four _ _ _ _ (h 0) x

/-- The pipeline's side condition on the table: at every grid point the weight block and the bias block the table names
    lie inside their arrays, with word-exact ends. -/
theorem ok_of_table (hl : ∀ x : S8.Idx, (tbl m 0 x).toNat < 4) : Ok m := by
  refine ⟨fun i => ?_, fun i => ?_⟩
  · obtain ⟨v, e⟩ : ∃ v : Fin 4, cc0_transform_1 k0_off1_inb numel1_S1 (tbl m) i = ![v.val, 0, 0] := ⟨⟨_, hl _⟩, rfl⟩
    rw [e]
    exact weight_block v
  · obtain ⟨v, e⟩ : ∃ v : Fin 4, cc0_transform_2 k0_off1_inb numel1_S1 (tbl m) i = ![v.val, 0, 0] := ⟨⟨_, hl _⟩, rfl⟩
    rw [e]
    exact bias_block v

end Cert.Kernel.OkOfPre

open Idealize.ShloMosaic Idealize.SL.Sem in
/-- The kernel's frame hypothesis follows from its precondition. -/
theorem Cert.Kernel.ok_of_pre (m : (ℓ : Loc Cert.Kernel.nD Cert.Kernel.τ Cert.Kernel.sig) → Buf (Elt Bits) ℓ)
    (h : Cert.Pre_Kernel m) : Cert.Kernel.Gen.Ok m :=
  Cert.Kernel.OkOfPre.ok_of_table m (Cert.Kernel.OkOfPre.table_lt m h)

end
-- ==== Proof.OkKernelIdeal.lean ====
/-
  The idealized kernel's blocks of the weights and of the bias are named by the index words: at grid point (p, q) the
  weight block is block (index[p], 0, 0) of the [4, 1536, 2048] weights, cut in blocks [1, 1536, 2048], and the bias
  block is block (index[p], 0, 0) of the [4, 1, 2048] bias, cut in blocks [1, 1, 2048]. Such a block lies inside its
  array exactly when index[p] < 4, and under the precondition every index word is below 4 (IndexRange.lean). A
  [1, 1536, 2048] block of 16-bit elements takes every row of the one slab it meets, so its ends are whole words.
-/
import proofs.«404798_j80315888435838_3_alg».proof.Defs
import proofs.«404798_j80315888435838_3_alg».proof.Proof.Gen.KernelIdeal.Frame
import proofs.«404798_j80315888435838_3_alg».proof.Proof.Gen.Pre_finite_inputs
import proofs.«404798_j80315888435838_3_alg».proof.Proof.IndexRange

set_option maxRecDepth 16384

noncomputable section

namespace Cert.KernelIdeal.OkOfPre

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The table the region reads is the index array of the launch memory (no host operation writes it). -/
theorem table_eq : tbl m 0 = m (((0 : Dev nD) : Thread nD τ).loc main_arg1) := V_main_arg1 m 0

/-- A weight block at an organism number lies inside the weights, and its ends are whole words. -/
theorem weight_block (v : Fin 4) :
    ∃ h : (∀ a, ((![v.val, 0, 0] : Fin 3 → Nat) a + 1) * S1x1536x2048.size a ≤ S4x1536x2048.size a),
      EltTy.bits .bf16 = 32 ∨ (Rect.block (s := S4x1536x2048) S1x1536x2048.size ![v.val, 0, 0] h).WholeWords (EltTy.packing .bf16) := by
  fin_cases v <;> exact ⟨by decide, .inr (by decide)⟩

/-- A bias block at an organism number lies inside the bias; its elements are a word each. -/
theorem bias_block (v : Fin 4) :
    ∃ h : (∀ a, ((![v.val, 0, 0] : Fin 3 → Nat) a + 1) * S1x1x2048.size a ≤ S4x1x2048.size a),
      EltTy.bits .f32 = 32 ∨ (Rect.block (s := S4x1x2048) S1x1x2048.size ![v.val, 0, 0] h).WholeWords (EltTy.packing .f32) := by
  fin_cases v <;> exact ⟨by decide, .inl rfl⟩

/-- Under the precondition every word of the table is an organism number. -/
theorem table_lt
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) = fun _ => 1#1)
    (x : S8.Idx) : (tbl m 0 x).toNat < 4 := by
  rw [table_eq]
  exact Cert.IndexRange.word_lt_four _ _ _ _ (h 0) x

/-- The pipeline's side condition on the table: at every grid point the weight block and the bias block the table names
    lie inside their arrays, with word-exact ends. -/
theorem ok_of_table (hl : ∀ x : S8.Idx, (tbl m 0 x).toNat < 4) : Ok m := by
  refine ⟨fun i => ?_, fun i => ?_⟩
  · obtain ⟨v, e⟩ : ∃ v : Fin 4, cc0_transform_1 k0_off1_inb numel1_S1 (tbl m) i = ![v.val, 0, 0] := ⟨⟨_, hl _⟩, rfl⟩
    rw [e]
    exact weight_block v
  · obtain ⟨v, e⟩ : ∃ v : Fin 4, cc0_transform_2 k0_off1_inb numel1_S1 (tbl m) i = ![v.val, 0, 0] := ⟨⟨_, hl _⟩, rfl⟩
    rw [e]
    exact bias_block v

end Cert.KernelIdeal.OkOfPre

open Idealize.ShloMosaic Idealize.SL.Sem in
/-- The idealized kernel's frame hypothesis follows from its precondition. -/
theorem Cert.KernelIdeal.ok_of_pre (m : (ℓ : Loc Cert.KernelIdeal.nD Cert.KernelIdeal.τ Cert.KernelIdeal.sig) → Buf (Elt Ideal) ℓ)
    (h : Cert.Pre_KernelIdeal m) : Cert.KernelIdeal.Gen.Ok m :=
  Cert.KernelIdeal.OkOfPre.ok_of_table m (Cert.KernelIdeal.OkOfPre.table_lt m h)

end
-- ==== Proof.KernelPayload.lean ====
/-
  What the kernel body stores, read at a coordinate, over the extended reals.

  At a grid point the body holds a [1, 512, 1536] block of x, a [1, 1536, 2048] block of the weights (already in the
  16-bit format) and a [1, 1, 2048] block of the bias. It drops the blocks' leading unit axes, narrows x to the 16-bit
  format (the identity on extended reals), multiplies the two matrices into a zero accumulator, adds the bias row to
  every row, and puts the unit axis back. So entry (0, r, j) of what it stores is

      (Σ k < 1536, xblock[0, r, k] · wblock[0, k, j]) + bblock[0, 0, j].

  A matrix product into the zero accumulator is, over the extended reals, the plain sum over the one contracted axis.
-/
import proofs.«404798_j80315888435838_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx

/-! ## The product's operand indices, axis by axis -/

/-- The left operand is read on its row axis at the result's row. -/
theorem lhs_row (i : S512x2048.Idx) (q : dot_S512x1536_S1536x2048_S512x2048_1_0_0_1_n_n.contr.Idx) :
    (dot_S512x1536_S1536x2048_S512x2048_1_0_0_1_n_n.lhsIdx i q 0).val = (i 0).val := by
  unfold DotDims.lhsIdx
  rw [dif_neg (show ¬(0 : Fin S512x1536.rank) ∈ dot_S512x1536_S1536x2048_S512x2048_1_0_0_1_n_n.lhsBatch by decide), dif_pos (show (0 : Fin S512x1536.rank) ∈ dot_S512x1536_S1536x2048_S512x2048_1_0_0_1_n_n.lhsNonContracting by decide)]
  rfl
/-- The left operand is read on its column axis at the contraction index. -/
theorem lhs_col (i : S512x2048.Idx) (q : dot_S512x1536_S1536x2048_S512x2048_1_0_0_1_n_n.contr.Idx) :
    (dot_S512x1536_S1536x2048_S512x2048_1_0_0_1_n_n.lhsIdx i q 1).val = (q ⟨0, by decide⟩).val :=
  dot_S512x1536_S1536x2048_S512x2048_1_0_0_1_n_n.lhsIdx_val_of_single rfl i q
/-- The right operand is read on its row axis at the contraction index. -/
theorem rhs_row (i : S512x2048.Idx) (q : dot_S512x1536_S1536x2048_S512x2048_1_0_0_1_n_n.contr.Idx) :
    (dot_S512x1536_S1536x2048_S512x2048_1_0_0_1_n_n.rhsIdx i q 0).val = (q ⟨0, by decide⟩).val :=
  dot_S512x1536_S1536x2048_S512x2048_1_0_0_1_n_n.rhsIdx_val_of_single rfl i q
/-- The right operand is read on its column axis at the result's column. -/
theorem rhs_col (i : S512x2048.Idx) (q : dot_S512x1536_S1536x2048_S512x2048_1_0_0_1_n_n.contr.Idx) :
    (dot_S512x1536_S1536x2048_S512x2048_1_0_0_1_n_n.rhsIdx i q 1).val = (i 1).val := by
  unfold DotDims.rhsIdx
  rw [dif_neg (show ¬(1 : Fin S1536x2048.rank) ∈ dot_S512x1536_S1536x2048_S512x2048_1_0_0_1_n_n.rhsBatch by decide), dif_pos (show (1 : Fin S1536x2048.rank) ∈ dot_S512x1536_S1536x2048_S512x2048_1_0_0_1_n_n.rhsNonContracting by decide)]
  rfl

/-- The [512, 1536] × [1536, 2048] product into the zero accumulator, at (r, j): the sum over k of a[r, k] · b[k, j]. -/
theorem product_at (a : FVec Ideal S512x1536 .bf16) (b : FVec Ideal S1536x2048 .bf16) (r : Fin 512) (j : Fin 2048) :
    matmul dot_S512x1536_S1536x2048_S512x2048_1_0_0_1_n_n none a b (constant (F := Ideal) S512x2048 .f32 0x00000000#32) (ix2 r j)
      = ∑ k : Fin 1536, a (ix2 r k) * b (ix2 k j) := by
  simp only [matmul]
  rw [Ideal.matmul_constant_zero_apply, ← Equiv.sum_comp (contrEquiv1 dot_S512x1536_S1536x2048_S512x2048_1_0_0_1_n_n 1536 rfl rfl).symm]
  refine Finset.sum_congr rfl fun k _ => ?_
  have hk := contrEquiv1_symm_val dot_S512x1536_S1536x2048_S512x2048_1_0_0_1_n_n 1536 rfl rfl k
  have el : dot_S512x1536_S1536x2048_S512x2048_1_0_0_1_n_n.lhsIdx (ix2 r j) ((contrEquiv1 dot_S512x1536_S1536x2048_S512x2048_1_0_0_1_n_n 1536 rfl rfl).symm k) = ix2 r k := funext fun a => Fin.ext (by
    match a with
    | ⟨0, _⟩ => exact lhs_row _ _
    | ⟨1, _⟩ => exact (lhs_col _ _).trans hk)
  have er : dot_S512x1536_S1536x2048_S512x2048_1_0_0_1_n_n.rhsIdx (ix2 r j) ((contrEquiv1 dot_S512x1536_S1536x2048_S512x2048_1_0_0_1_n_n 1536 rfl rfl).symm k) = ix2 k j := funext fun a => Fin.ext (by
    match a with
    | ⟨0, _⟩ => exact (rhs_row _ _).trans hk
    | ⟨1, _⟩ => exact rhs_col _ _)
  rw [el, er]

/-! ## The stored value -/

/-- Entry (0, r, j) of what the body stores: row r of the x block times column j of the weight block, plus entry j of the
    bias block. -/
theorem stored_at (v0 : Vec Ideal S1x512x1536 .f32) (v3 : Vec Ideal S1x1536x2048 .bf16) (v6 : Vec Ideal S1x1x2048 .f32)
    (r : Fin 512) (j : Fin 2048) :
    k0_pay1 (F := Ideal) v0 v3 v6 (ix3 (0 : Fin 1) r j)
      = (∑ k : Fin 1536, v0 (ix3 (0 : Fin 1) r k) * v3 (ix3 (0 : Fin 1) k j)) + v6 (ix3 (0 : Fin 1) (0 : Fin 1) j) := by
  unfold k0_pay1
  -- the unit axis put back: entry (0, r, j) of the stored block is entry (r, j) of the sum
  refine (shapeCast_apply _ _ (ix3 (0 : Fin 1) r j) (ix2 r j) ?_).trans ?_
  · rw [Shape.rowMajor_val_two, Shape.rowMajor_val_three]
    show r.val * 2048 + j.val = ((0 : ℕ) * 512 + r.val) * 2048 + j.val
    omega
  refine (addf_apply _ _ _).trans ?_
  refine congr (congrArg HAdd.hAdd ?_) ?_
  · -- the product, its operands read through the dropped unit axes (the narrowing is the identity)
    refine (product_at _ _ r j).trans (Finset.sum_congr rfl fun k _ => ?_)
    refine congr (congrArg HMul.hMul ?_) ?_
    · refine (shapeCast_apply _ _ (ix2 r k) (ix3 (0 : Fin 1) r k) ?_)
      rw [Shape.rowMajor_val_two, Shape.rowMajor_val_three]
      show ((0 : ℕ) * 512 + r.val) * 1536 + k.val = r.val * 1536 + k.val
      omega
    · refine (shapeCast_apply _ _ (ix2 k j) (ix3 (0 : Fin 1) k j) ?_)
      rw [Shape.rowMajor_val_two, Shape.rowMajor_val_three]
      show ((0 : ℕ) * 1536 + k.val) * 2048 + j.val = k.val * 2048 + j.val
      omega
  · -- the bias row, the same for every row r
    refine (broadcastTo_apply _ _ (ix2 r j) (ix2 (0 : Fin 1) j) ?_).trans ?_
    · intro a
      match a with
      | ⟨0, _⟩ => rfl
      | ⟨1, _⟩ => rfl
    · refine (shapeCast_apply _ _ (ix2 (0 : Fin 1) j) (ix3 (0 : Fin 1) (0 : Fin 1) j) ?_)
      rw [Shape.rowMajor_val_two, Shape.rowMajor_val_three]
      show ((0 : ℕ) * 1 + (0 : ℕ)) * 2048 + j.val = (0 : ℕ) * 2048 + j.val
      omega

end Cert.KernelIdeal.Payload

end
-- ==== Proof.Spec.lean ====
/-
  The mathematics both programs compute, as one function of the four argument arrays.

  There are 8 batch rows and 4 organisms. Batch row `p` is routed to the organism its index word names; every one of the
  row's 4096 positions is multiplied by that organism's [1536, 2048] weight matrix, and that organism's bias row is added:

      out[p, r, j] = (Σ k < 1536, x[p, r, k] · w[org p, k, j]) + b[org p, j].

  The organism is read off the index word as a natural number reduced modulo 4, so that the function is total; on the
  domain the statement admits (every word in [0, 4)) the reduction does nothing. Everything is over the extended reals:
  no law is used here, the two programs are compared with this function term by term.
-/
import Idealize.ShloMosaic.PureOps.Ideal
import Idealize.ShloMosaic.Lib.ValueIdx

noncomputable section

namespace Cert.Spec

open Idealize.ShloMosaic Idealize.ShloMosaic.ValueIdx

/-- The shapes of the four arguments and of the result. -/
abbrev Sx : Shape := ⟨3, ![8, 4096, 1536]⟩
abbrev So : Shape := ⟨1, ![8]⟩
abbrev Sw : Shape := ⟨3, ![4, 1536, 2048]⟩
abbrev Sb : Shape := ⟨2, ![4, 2048]⟩
abbrev Sout : Shape := ⟨3, ![8, 4096, 2048]⟩

/-- The organism batch row `p` is routed to: its index word, as a natural number, reduced into the four organisms. -/
def organism (o : So.Idx → BitVec 32) (p : Fin 8) : Fin 4 :=
  ⟨(o (ix1 p)).toNat % 4, Nat.mod_lt _ (by decide)⟩

/-- Where the word is already below 4 the reduction is the word. -/
theorem organism_val (o : So.Idx → BitVec 32) (p : Fin 8) (h : (o (ix1 p)).toNat < 4) :
    (organism o p).val = (o (ix1 p)).toNat := Nat.mod_eq_of_lt h

/-- The routed linear layer: row `r` of batch row `p` times the weights of `p`'s organism, plus that organism's bias. -/
def routed (x : Sx.Idx → EReal) (o : So.Idx → BitVec 32) (w : Sw.Idx → EReal) (b : Sb.Idx → EReal) : Sout.Idx → EReal :=
  fun i => (∑ k : Fin 1536, x (ix3 (i 0) (i 1) k) * w (ix3 (organism o (i 0)) k (i 2))) + b (ix2 (organism o (i 0)) (i 2))

/-- The same, at an index given by its coordinates. -/
theorem routed_apply (x : Sx.Idx → EReal) (o : So.Idx → BitVec 32) (w : Sw.Idx → EReal) (b : Sb.Idx → EReal)
    (p : Fin 8) (r : Fin 4096) (j : Fin 2048) :
    routed x o w b (ix3 p r j) = (∑ k : Fin 1536, x (ix3 p r k) * w (ix3 (organism o p) k j)) + b (ix2 (organism o p) j) := rfl

end Cert.Spec

end
-- ==== Proof.KernelValue.lean ====
/-
  What the idealized kernel leaves in its result array: the routed linear layer of Spec.lean.

  The grid has 8 × 8 points. Point (p, q) works on batch row p and on rows 512·q … 512·q + 511 of it: its x block is block
  (p, q, 0) of x, its result block is block (p, q, 0) of the result, and its weight block and bias block are the blocks
  (index[p], 0, 0) of the weights and of the bias — the weights narrowed to the 16-bit format and the bias given a unit middle
  axis by two host operations before the region, both the identity on extended reals read at an index. The body stores ONE
  value covering its whole result block (KernelPayload.lean reads it at a coordinate), every point writes its block back,
  and the 64 blocks tile the [8, 4096, 2048] result: row s of batch row p lies in the block of point (p, s / 512). So the
  result array ends holding, at (p, s, j), the sum over k of x[p, s, k] · w[index[p], k, j] plus b[index[p], j], and where
  index[p] < 4 that is the specification with organism p = index[p].
-/
import proofs.«404798_j80315888435838_3_alg».proof.Defs
import proofs.«404798_j80315888435838_3_alg».proof.Proof.Gen.KernelIdeal.Frame
import proofs.«404798_j80315888435838_3_alg».proof.Proof.KernelPayload
import proofs.«404798_j80315888435838_3_alg».proof.Proof.Spec
import Idealize.ShloMosaic.Lib.Pipeline.Value
import Idealize.ShloMosaic.Lib.StableHlo.Run
import Idealize.ShloMosaic.Lib.Tactic
import Idealize.ShloMosaic.Lib.ValueIdx

set_option maxRecDepth 16384

noncomputable section

namespace Cert.KernelIdeal.Routed

open Cert.KernelIdeal Cert.KernelIdeal.Gen
open Idealize.ShloMosaic Idealize.ShloMosaic.TcCoe Idealize.SL.Sem Idealize.ShloMosaic.ValueIdx
open Idealize.ShloMosaic.Pipeline (Dat)

/-! ## What the body leaves in its result block -/

theorem zero_offsets : (![0, 0, 0] : Fin 3 → Nat) = fun _ => 0 := funext fun a => by fin_cases a <;> rfl

/-- The body's one store covers the result block, and its loads read the three input blocks whole: the block it leaves is
    its stored value of the three input blocks. -/
theorem block_stored {F : FTy → Type} [FloatOps F] (c : Dev nD) (i : grid0.Coords)
    (a3 : Memref sig .tc .vmem S1x512x1536 .f32) (h3 : a3.IsWhole) (a4 : Memref sig .tc .vmem S1x1536x2048 .bf16) (h4 : a4.IsWhole)
    (a5 : Memref sig .tc .vmem S1x1x2048 .f32) (h5 : a5.IsWhole) (a6 : Memref sig .tc .vmem S1x512x2048 .f32) (h6 : a6.IsWhole)
    (x0 : Vec F S1x512x1536 .f32) (x1 : Vec F S1x1536x2048 .bf16) (x2 : Vec F S1x1x2048 .f32) (xt0 : TbBuf0 (F := F) c tbM0_0) :
    out0_A_3 c i a3 h3 a4 h4 a5 h5 a6 h6 x0 x1 x2 xt0 = k0_pay1 x0 x1 x2 := by
  unfold out0_A_3
  rw [View.read_writes_eq_canon _ _ _ (cover0_A_3 c i a3 h3 a4 h4 a5 h5 a6 h6 x0 x1 x2 xt0)]
  unfold kernelRun0_A
  dsimp only
  sl_unfold_words
  rw [View.canon_unit_zero zero_offsets]
  simp only [View.readAt_eq_ld, h3.read_unread, h4.read_unread, h5.read_unread,
    View.ld_unit_zero (S := S1x512x1536) zero_offsets, View.ld_unit_zero (S := S1x1536x2048) zero_offsets,
    View.ld_unit_zero (S := S1x1x2048) zero_offsets]

variable (m : (ℓ : Loc nD τ sig) → Buf (Elt Ideal) ℓ) (ρ : Dev nD → PrngReg)

/-! ## The arrays the region finds -/

/-- The weights the region finds are the argument's, narrowed to the 16-bit format. -/
theorem V_weights (c : Dev nD) : (V m c main_v0 : S4x1536x2048.Idx → Elt Ideal .bf16)
    = truncf (F := Ideal) (s := S4x1536x2048) (φ := .f32) .bf16 (m ((c : Thread nD τ).loc main_arg2)) bitsLt_bf16_f32 := by
  dsimp only [Gen.V, Gen.hostOps0]; after_results

/-- The bias the region finds is the argument's with a unit middle axis. -/
theorem V_bias (c : Dev nD) : (V m c main_v1 : S4x1x2048.Idx → Elt Ideal .f32)
    = broadcastInDim (s := S4x2048) (α := Elt Ideal .f32) S4x1x2048 ![0, 2] bcast_S4x2048_S4x1x2048_0_2 (m ((c : Thread nD τ).loc main_arg3)) := by
  dsimp only [Gen.V, Gen.hostOps0]; after_results

/-- The table the region reads is the index argument, on the program's one device. -/
theorem table_eq (c : Dev nD) : tbl m 0 = m ((c : Thread nD τ).loc main_arg1) :=
  (V_pre m c 0).symm.trans (V_main_arg1 m c)

/-! ## The index maps in closed form -/

/-- The batch row and the row tile of a grid point. -/
abbrev row (i : grid0.Coords) : Fin 8 := ⟨(i 0).val, (i 0).isLt⟩
abbrev tile (i : grid0.Coords) : Fin 8 := ⟨(i 1).val, (i 1).isLt⟩

/-- Point (p, q) reads block (p, q, 0) of x and writes block (p, q, 0) of the result. -/
theorem x_index : ∀ i : grid0.Coords, cc0_transform_0 i = ![(i 0).val, (i 1).val, 0] := by decide +kernel
theorem out_index : ∀ i : grid0.Coords, cc0_transform_3 i = ![(i 0).val, (i 1).val, 0] := by decide +kernel

/-- A grid coordinate, made a 32-bit word and an index again, is itself. -/
theorem coord_word (n : Nat) (h : n < 8) : (Scalar.indexCast (BitVec.ofNat 32 n)).toNat = n := by
  show (BitVec.ofNat 32 n).toNat = n
  rw [BitVec.toNat_ofNat]
  exact Nat.mod_eq_of_lt (by omega)

/-- The one-word rectangle of the table at a point's batch row is entry `row` of the table. -/
theorem table_entry (i : grid0.Coords) (inb : ∀ a, (![(Scalar.indexCast (BitVec.ofNat 32 (i 0).val)).toNat] : Fin 1 → Nat) a + S1.size a ≤ S8.size a)
    (h1 : 0 < S1.numel) :
    (Rect.unit (s := S8) ![(Scalar.indexCast (BitVec.ofNat 32 (i 0).val)).toNat] S1.size inb).emb (Shape.Idx.first h1) = ix1 (row i) := by
  funext a
  apply Fin.ext
  match a with
  | ⟨0, _⟩ =>
    show (Scalar.indexCast (BitVec.ofNat 32 (i 0).val)).toNat + 1 * (Shape.Idx.first h1 (0 : Fin 1)).val = (i 0).val
    have hf : (Shape.Idx.first h1 (0 : Fin 1)).val = 0 := by
      have := (Shape.Idx.first h1 (0 : Fin 1)).isLt
      have e : S1.size (0 : Fin 1) = 1 := by decide
      omega
    rw [hf, coord_word _ (i 0).isLt]
    omega

/-- Point (p, q) reads block (table[p], 0, 0) of the weights -/
theorem weight_index (pf : pre0.Contents (Elt Ideal)) (i : grid0.Coords) :
    cc0_transform_1 k0_off1_inb numel1_S1 pf i = ![(pf 0 (ix1 (row i))).toNat, 0, 0] := by
  unfold cc0_transform_1
  dsimp only
  exact congrArg (fun v : BitVec 32 => (![v.toNat, 0, 0] : Fin 3 → Nat)) (congrArg (pf 0) (table_entry i _ _))

/-- and block (table[p], 0, 0) of the bias. -/
theorem bias_index (pf : pre0.Contents (Elt Ideal)) (i : grid0.Coords) :
    cc0_transform_2 k0_off1_inb numel1_S1 pf i = ![(pf 0 (ix1 (row i))).toNat, 0, 0] := by
  unfold cc0_transform_2
  dsimp only
  exact congrArg (fun v : BitVec 32 => (![v.toNat, 0, 0] : Fin 3 → Nat)) (congrArg (pf 0) (table_entry i _ _))

/-! ## Where a point's blocks sit in their arrays -/

variable (hO : Ok m)

/-- Row r of the tile of point i, as a row of the batch row. -/
abbrev tileRow (i : grid0.Coords) (r : Fin 512) : Fin 4096 :=
  ⟨512 * (tile i).val + r.val, by have := (tile i).isLt; have := r.isLt; omega⟩

/-- Entry (0, r, j) of point t's result block is entry (p, 512·q + r, j) of the result. -/
theorem out_emb (t : Fin (cfgM m hO).N) (r : Fin 512) (j : Fin 2048) :
    (((cfgM m hO).win 3).blk t).view.emb (ix3 (0 : Fin 1) r j)
      = ix3 (row (grid0.coords t)) (tileRow (grid0.coords t) r) j := by
  have e : ((cfgM m hO).win 3).index t = ![(grid0.coords t 0).val, (grid0.coords t 1).val, 0] := out_index (grid0.coords t)
  funext a
  apply Fin.ext
  match a with
  | ⟨0, _⟩ =>
    show ((cfgM m hO).win 3).index t (0 : Fin 3) * 1 + 1 * (0 : ℕ) = (grid0.coords t 0).val
    rw [e]
    show (grid0.coords t 0).val * 1 + 1 * 0 = (grid0.coords t 0).val
    omega
  | ⟨1, _⟩ =>
    show ((cfgM m hO).win 3).index t (1 : Fin 3) * 512 + 1 * r.val = 512 * (grid0.coords t 1).val + r.val
    rw [e]
    show (grid0.coords t 1).val * 512 + 1 * r.val = 512 * (grid0.coords t 1).val + r.val
    omega
  | ⟨2, _⟩ =>
    show ((cfgM m hO).win 3).index t (2 : Fin 3) * 2048 + 1 * j.val = j.val
    rw [e]
    show 0 * 2048 + 1 * j.val = j.val
    omega

/-- Entry (0, r, k) of point t's x block is entry (p, 512·q + r, k) of x. -/
theorem x_emb (t : Fin (cfgM m hO).N) (r : Fin 512) (k : Fin 1536) :
    (((cfgM m hO).win 0).blk t).view.emb (ix3 (0 : Fin 1) r k)
      = ix3 (row (grid0.coords t)) (tileRow (grid0.coords t) r) k := by
  have e : ((cfgM m hO).win 0).index t = ![(grid0.coords t 0).val, (grid0.coords t 1).val, 0] := x_index (grid0.coords t)
  funext a
  apply Fin.ext
  match a with
  | ⟨0, _⟩ =>
    show ((cfgM m hO).win 0).index t (0 : Fin 3) * 1 + 1 * (0 : ℕ) = (grid0.coords t 0).val
    rw [e]
    show (grid0.coords t 0).val * 1 + 1 * 0 = (grid0.coords t 0).val
    omega
  | ⟨1, _⟩ =>
    show ((cfgM m hO).win 0).index t (1 : Fin 3) * 512 + 1 * r.val = 512 * (grid0.coords t 1).val + r.val
    rw [e]
    show (grid0.coords t 1).val * 512 + 1 * r.val = 512 * (grid0.coords t 1).val + r.val
    omega
  | ⟨2, _⟩ =>
    show ((cfgM m hO).win 0).index t (2 : Fin 3) * 1536 + 1 * k.val = k.val
    rw [e]
    show 0 * 1536 + 1 * k.val = k.val
    omega

/-- Entry (0, k, j) of point t's weight block is entry (table[p], k, j) of the weights. -/
theorem weight_emb (t : Fin (cfgM m hO).N) (org : Fin 4) (horg : org.val = (tbl m 0 (ix1 (row (grid0.coords t)))).toNat)
    (k : Fin 1536) (j : Fin 2048) :
    (((cfgM m hO).win 1).blk t).view.emb (ix3 (0 : Fin 1) k j) = ix3 org k j := by
  have e : ((cfgM m hO).win 1).index t = ![(tbl m 0 (ix1 (row (grid0.coords t)))).toNat, 0, 0] := weight_index (tbl m) (grid0.coords t)
  funext a
  apply Fin.ext
  match a with
  | ⟨0, _⟩ =>
    show ((cfgM m hO).win 1).index t (0 : Fin 3) * 1 + 1 * (0 : ℕ) = org.val
    rw [e]
    show (tbl m 0 (ix1 (row (grid0.coords t)))).toNat * 1 + 1 * 0 = org.val
    omega
  | ⟨1, _⟩ =>
    show ((cfgM m hO).win 1).index t (1 : Fin 3) * 1536 + 1 * k.val = k.val
    rw [e]
    show 0 * 1536 + 1 * k.val = k.val
    omega
  | ⟨2, _⟩ =>
    show ((cfgM m hO).win 1).index t (2 : Fin 3) * 2048 + 1 * j.val = j.val
    rw [e]
    show 0 * 2048 + 1 * j.val = j.val
    omega

/-- Entry (0, 0, j) of point t's bias block is entry (table[p], 0, j) of the bias with its unit axis. -/
theorem bias_emb (t : Fin (cfgM m hO).N) (org : Fin 4) (horg : org.val = (tbl m 0 (ix1 (row (grid0.coords t)))).toNat)
    (j : Fin 2048) :
    (((cfgM m hO).win 2).blk t).view.emb (ix3 (0 : Fin 1) (0 : Fin 1) j) = ix3 org (0 : Fin 1) j := by
  have e : ((cfgM m hO).win 2).index t = ![(tbl m 0 (ix1 (row (grid0.coords t)))).toNat, 0, 0] := bias_index (tbl m) (grid0.coords t)
  funext a
  apply Fin.ext
  match a with
  | ⟨0, _⟩ =>
    show ((cfgM m hO).win 2).index t (0 : Fin 3) * 1 + 1 * (0 : ℕ) = org.val
    rw [e]
    show (tbl m 0 (ix1 (row (grid0.coords t)))).toNat * 1 + 1 * 0 = org.val
    omega
  | ⟨1, _⟩ =>
    show ((cfgM m hO).win 2).index t (1 : Fin 3) * 1 + 1 * (0 : ℕ) = 0
    rw [e]
    show 0 * 1 + 1 * 0 = 0
    omega
  | ⟨2, _⟩ =>
    show ((cfgM m hO).win 2).index t (2 : Fin 3) * 2048 + 1 * j.val = j.val
    rw [e]
    show 0 * 2048 + 1 * j.val = j.val
    omega

/-! ## The input blocks, read at a coordinate -/

/-- The three input blocks of point t, at their literal types. -/
abbrev xblk (c : Dev nD) (t : Fin (cfgM m hO).N) : Vec Ideal S1x512x1536 .f32 := iblk m hO c 0 t
abbrev wblk (c : Dev nD) (t : Fin (cfgM m hO).N) : Vec Ideal S1x1536x2048 .bf16 := iblk m hO c 1 t
abbrev bblk (c : Dev nD) (t : Fin (cfgM m hO).N) : Vec Ideal S1x1x2048 .f32 := iblk m hO c 2 t

theorem x_block (c : Dev nD) (t : Fin (cfgM m hO).N) (r : Fin 512) (k : Fin 1536) :
    xblk m hO c t (ix3 (0 : Fin 1) r k)
      = m ((c : Thread nD τ).loc main_arg0) (ix3 (row (grid0.coords t)) (tileRow (grid0.coords t) r) k) := by
  show V m c main_arg0 ((((cfgM m hO).win 0).blk t).view.emb (ix3 (0 : Fin 1) r k)) = _
  rw [x_emb, V_main_arg0]

theorem weight_block (c : Dev nD) (t : Fin (cfgM m hO).N) (org : Fin 4)
    (horg : org.val = (tbl m 0 (ix1 (row (grid0.coords t)))).toNat) (k : Fin 1536) (j : Fin 2048) :
    wblk m hO c t (ix3 (0 : Fin 1) k j) = m ((c : Thread nD τ).loc main_arg2) (ix3 org k j) := by
  show V m c main_v0 ((((cfgM m hO).win 1).blk t).view.emb (ix3 (0 : Fin 1) k j)) = _
  rw [weight_emb m hO t org horg, V_weights]
  rfl

theorem bias_block (c : Dev nD) (t : Fin (cfgM m hO).N) (org : Fin 4)
    (horg : org.val = (tbl m 0 (ix1 (row (grid0.coords t)))).toNat) (j : Fin 2048) :
    bblk m hO c t (ix3 (0 : Fin 1) (0 : Fin 1) j) = m ((c : Thread nD τ).loc main_arg3) (ix2 org j) := by
  show V m c main_v1 ((((cfgM m hO).win 2).blk t).view.emb (ix3 (0 : Fin 1) (0 : Fin 1) j)) = _
  rw [bias_emb m hO t org horg, V_bias]
  exact broadcastInDim_apply _ _ _ (ix3 org (0 : Fin 1) j) (ix2 org j) (fun a => match a with
    | ⟨0, _⟩ => by show org.val = if (4 : ℕ) = 1 then 0 else org.val; rw [if_neg (by decide)]
    | ⟨1, _⟩ => by show j.val = if (2048 : ℕ) = 1 then 0 else j.val; rw [if_neg (by decide)])

/-! ## What each point writes back -/

/-- The specification at the launch memory's four arguments: what the result array is to hold. -/
abbrev spec (c : Dev nD) : Buf (Elt Ideal) ((c : Thread nD τ).loc main_v2) :=
  Cert.Spec.routed (m ((c : Thread nD τ).loc main_arg0)) (m ((c : Thread nD τ).loc main_arg1))
    (m ((c : Thread nD τ).loc main_arg2)) (m ((c : Thread nD τ).loc main_arg3))

/-- Where every table word is below 4, point t writes back block t of the specification: entry (0, r, j) of its stored value
    is row 512·q + r of batch row p times the weights of table[p], plus that organism's bias, and table[p] is the
    specification's organism of p. -/
theorem flushed_eq (hl : ∀ x : S8.Idx, (tbl m 0 x).toNat < 4) (c : Dev nD) (t : Fin (cfgM m hO).N) :
    (dats m hO 0 c).flushed 3 t = (((cfgM m hO).win 3).blk t).view.read (Elt Ideal) (spec m c) := by
  have hb : outsAt0 m hO c t = k0_pay1 (xblk m hO c t) (wblk m hO c t) (bblk m hO c t) :=
    block_stored c (grid0.coords t) (ms0_0 m hO t) (hs0_0 m hO t) (ms0_1 m hO t) (hs0_1 m hO t) (ms0_2 m hO t) (hs0_2 m hO t)
      (ms0_3 m hO t) (hs0_3 m hO t) (iblk m hO c 0 t) (iblk m hO c 1 t) (iblk m hO c 2 t) (tbl m 0)
  show ((cfgM m hO).win 3).cut (grid0.coords t) ((dats m hO 0 c).after 3 t) = _
  rw [after0_3, hb]
  refine funext fun (y : S1x512x2048.Idx) => ?_
  obtain ⟨z, r, j, rfl⟩ : ∃ (z : Fin 1) (r : Fin 512) (j : Fin 2048), y = ix3 z r j := ⟨y 0, y 1, y 2, eq_ix3 y⟩
  obtain rfl : z = 0 := Subsingleton.elim _ _
  show k0_pay1 (xblk m hO c t) (wblk m hO c t) (bblk m hO c t) (ix3 (0 : Fin 1) r j)
    = spec m c ((((cfgM m hO).win 3).blk t).view.emb (ix3 (0 : Fin 1) r j))
  rw [out_emb]
  have horg : (Cert.Spec.organism (m ((c : Thread nD τ).loc main_arg1)) (row (grid0.coords t))).val
      = (tbl m 0 (ix1 (row (grid0.coords t)))).toNat := by
    rw [table_eq m c]
    exact Cert.Spec.organism_val _ _ (by rw [← table_eq m c]; exact hl _)
  refine (Payload.stored_at (xblk m hO c t) (wblk m hO c t) (bblk m hO c t) r j).trans ?_
  refine Eq.trans ?_ (Cert.Spec.routed_apply _ _ _ _ (row (grid0.coords t)) (tileRow (grid0.coords t) r) j).symm
  refine congr (congrArg HAdd.hAdd (Finset.sum_congr rfl fun k _ => ?_)) ?_
  · exact congr (congrArg HMul.hMul (x_block m hO c t r k)) (weight_block m hO c t _ horg k j)
  · exact bias_block m hO c t _ horg j

/-! ## The blocks tile the result -/

/-- Every (batch row, row tile) is some point's. -/
theorem out_onto : ∀ (p q : Fin 8), ∃ t : Fin grid0.N, cc0_transform_3 (grid0.coords t) = ![p.val, q.val, 0] := by
  decide +kernel

/-- Every index (p, s, j) of the result is entry (0, s mod 512, j) of the block of the point (p, s / 512), which writes back. -/
theorem cover (i : S8x4096x2048.Idx) :
    ∃ t : Fin (cfgM m hO).N, ((cfgM m hO).win 3).flush t = true ∧ i ∈ (((cfgM m hO).win 3).blk t).view.set := by
  have h0 : (i 0).val < 8 := (i 0).isLt
  have h1 : (i 1).val < 4096 := (i 1).isLt
  have h2 : (i 2).val < 2048 := (i 2).isLt
  obtain ⟨t, ht⟩ := out_onto ⟨(i 0).val, h0⟩ ⟨(i 1).val / 512, by omega⟩
  have e : ((cfgM m hO).win 3).index t = ![(i 0).val, (i 1).val / 512, 0] := ht
  have hy : (((cfgM m hO).win 3).blk t).view.emb
      (ix3 (0 : Fin 1) (⟨(i 1).val % 512, Nat.mod_lt _ (by decide)⟩ : Fin 512) (⟨(i 2).val, h2⟩ : Fin 2048)) = i := by
    funext a
    apply Fin.ext
    match a with
    | ⟨0, _⟩ =>
      show ((cfgM m hO).win 3).index t (0 : Fin 3) * 1 + 1 * (0 : ℕ) = (i 0).val
      rw [e]
      show (i 0).val * 1 + 1 * 0 = (i 0).val
      omega
    | ⟨1, _⟩ =>
      show ((cfgM m hO).win 3).index t (1 : Fin 3) * 512 + 1 * ((i 1).val % 512) = (i 1).val
      rw [e]
      show (i 1).val / 512 * 512 + 1 * ((i 1).val % 512) = (i 1).val
      omega
    | ⟨2, _⟩ =>
      show ((cfgM m hO).win 3).index t (2 : Fin 3) * 2048 + 1 * (i 2).val = (i 2).val
      rw [e]
      show 0 * 2048 + 1 * (i 2).val = (i 2).val
      omega
  exact ⟨t, flush0_3 (adm m hO) t, hy ▸ (((cfgM m hO).win 3).blk t).view.emb_mem_set _⟩

/-- So the result array ends holding the specification. -/
theorem final (hl : ∀ x : S8.Idx, (tbl m 0 x).toNat < 4) (c : Dev nD) :
    (dats m hO 0 c).arrAt 3 (cfgM m hO).N = spec m c :=
  (dats m hO 0 c).arrAt_eq_of_cover 3 (spec m c) (fun t _ => flushed_eq m hO hl c t) (cover m hO)

/-! ## The run, read -/

include hO in
/-- Every weakly fair execution of the idealized kernel from a launch memory whose index words are all below 4 ends with the
    result array at the specification and the four arguments unchanged. -/
theorem run (hl : ∀ x : S8.Idx, (tbl m 0 x).toNat < 4) :
    θ_run defs (onTc (τ := τ) (main (F := Ideal))) ⟨m, fun _ => 0, ρ⟩ fun r => ∀ c : Dev nD,
      r.2.mem ((c.tc : Thread nD τ).loc main_v2) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final m hO hl c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ hO)

end Cert.KernelIdeal.Routed

end
-- ==== Proof.RefValue.lean ====
/-
  The reference's result, index by index, is the routed linear layer of Spec.lean.

  The reference selects, for each batch row, one organism's weight matrix and bias row by a gather along the organism axis,
  then contracts and adds. A gather reads the operand at the start index, taken as a signed integer and clamped into the
  operand's axis; on the other axes it reads the result's own coordinates. The start index of batch row p is the index word
  of p after the wrap "a negative word has 4 added". Where every index word is a natural number below 4 the wrap and the
  clamp both leave the word as it is, so row p reads organism (word of p), which is the specification's organism of p. What is
  left is the same sum over the contracted axis plus the same bias entry on both sides, term by term.
-/
import proofs.«404798_j80315888435838_3_alg».proof.Proof.Gen.ReferenceIdeal.Run
import proofs.«404798_j80315888435838_3_alg».proof.Proof.Gen.ReferenceIdeal.Read
import proofs.«404798_j80315888435838_3_alg».proof.Proof.Spec
import Idealize.ShloMosaic.Lib.ValueIdx
import Idealize.ShloMosaic.Lib.Affine

noncomputable section

namespace Cert.RefValue

open Idealize.ShloMosaic Idealize.ShloMosaic.ValueIdx Cert.ReferenceIdeal

/-! ## The gather of weight matrices, axis by axis

Operand [4, 1536, 2048], start indices [8, 1], result [8, 1536, 2048]. Operand axis 0 is collapsed and is the one axis the
start index names; axes 1 and 2 are the offset axes, carried by result axes 1 and 2; result axis 0 is the batch axis and reads
row p of the start-index column. -/

/-- Operand axis 0: the start index of row p, read signed and clamped into [0, 3]. -/
theorem weights_axis0 {w : Nat} (idx : IVec S8x1 w) (p : Fin 8) (k : Fin 1536) (j : Fin 2048) :
    (gather_S4x1536x2048_S8x1_S8x1536x2048_12_0_n_n_0_1_115362048.operandIdx (ix3 p k j) idx 0).val
      = min (idx (ix2 p (0 : Fin 1))).toInt.toNat 3 := by
  have hb : (0 : Fin S4x1536x2048.rank) ∉ gather_S4x1536x2048_S8x1_S8x1536x2048_12_0_n_n_0_1_115362048.operandBatchingDims :=
    List.not_mem_nil
  have hk : (0 : Fin S4x1536x2048.rank) ∉ gather_S4x1536x2048_S8x1_S8x1536x2048_12_0_n_n_0_1_115362048.sKept :=
    fun hmem => ((GatherDims.mem_sKept _ _).mp hmem).1 (List.mem_singleton.mpr rfl)
  have hm : (0 : Fin S4x1536x2048.rank) ∈ gather_S4x1536x2048_S8x1_S8x1536x2048_12_0_n_n_0_1_115362048.startIndexMap :=
    List.mem_singleton.mpr rfl
  show gather_S4x1536x2048_S8x1_S8x1536x2048_12_0_n_n_0_1_115362048.start (ix3 p k j) idx 0
      + gather_S4x1536x2048_S8x1_S8x1536x2048_12_0_n_n_0_1_115362048.batchCoord (ix3 p k j) 0
      + gather_S4x1536x2048_S8x1_S8x1536x2048_12_0_n_n_0_1_115362048.offCoord (ix3 p k j) 0 = _
  rw [GatherDims.batchCoord_eq_zero _ _ _ hb, GatherDims.offCoord_eq_zero _ _ _ hk, Nat.add_zero]
  unfold GatherDims.start
  rw [dif_pos hm]
  -- the one component of the start index sits at row p of the column
  have hrow : gather_S4x1536x2048_S8x1_S8x1536x2048_12_0_n_n_0_1_115362048.siIdx (ix3 p k j)
      ⟨List.idxOf (0 : Fin S4x1536x2048.rank) gather_S4x1536x2048_S8x1_S8x1536x2048_12_0_n_n_0_1_115362048.startIndexMap,
        List.idxOf_lt_length_iff.2 hm⟩ = ix2 p (0 : Fin 1) := by
    funext b
    refine Fin.ext ?_
    match b with
    | ⟨0, _⟩ => rfl
    | ⟨1, _⟩ => rfl
  rw [hrow]
  rfl

/-- Operand axis 1 is the first offset axis: the result's own coordinate on axis 1. -/
theorem weights_axis1 {w : Nat} (idx : IVec S8x1 w) (p : Fin 8) (k : Fin 1536) (j : Fin 2048) :
    (gather_S4x1536x2048_S8x1_S8x1536x2048_12_0_n_n_0_1_115362048.operandIdx (ix3 p k j) idx 1).val = k.val := by
  have hb : (1 : Fin S4x1536x2048.rank) ∉ gather_S4x1536x2048_S8x1_S8x1536x2048_12_0_n_n_0_1_115362048.operandBatchingDims :=
    List.not_mem_nil
  have hm : ¬(1 : Fin S4x1536x2048.rank) ∈ gather_S4x1536x2048_S8x1_S8x1536x2048_12_0_n_n_0_1_115362048.startIndexMap := by
    decide
  have hk : (1 : Fin S4x1536x2048.rank) ∈ gather_S4x1536x2048_S8x1_S8x1536x2048_12_0_n_n_0_1_115362048.sKept := by
    decide
  show gather_S4x1536x2048_S8x1_S8x1536x2048_12_0_n_n_0_1_115362048.start (ix3 p k j) idx 1
      + gather_S4x1536x2048_S8x1_S8x1536x2048_12_0_n_n_0_1_115362048.batchCoord (ix3 p k j) 1
      + gather_S4x1536x2048_S8x1_S8x1536x2048_12_0_n_n_0_1_115362048.offCoord (ix3 p k j) 1 = _
  rw [GatherDims.batchCoord_eq_zero _ _ _ hb, Nat.add_zero]
  unfold GatherDims.start GatherDims.offCoord
  rw [dif_neg hm, dif_pos hk, Nat.zero_add]
  rfl

/-- Operand axis 2 is the second offset axis: the result's own coordinate on axis 2. -/
theorem weights_axis2 {w : Nat} (idx : IVec S8x1 w) (p : Fin 8) (k : Fin 1536) (j : Fin 2048) :
    (gather_S4x1536x2048_S8x1_S8x1536x2048_12_0_n_n_0_1_115362048.operandIdx (ix3 p k j) idx 2).val = j.val := by
  have hb : (2 : Fin S4x1536x2048.rank) ∉ gather_S4x1536x2048_S8x1_S8x1536x2048_12_0_n_n_0_1_115362048.operandBatchingDims :=
    List.not_mem_nil
  have hm : ¬(2 : Fin S4x1536x2048.rank) ∈ gather_S4x1536x2048_S8x1_S8x1536x2048_12_0_n_n_0_1_115362048.startIndexMap := by
    decide
  have hk : (2 : Fin S4x1536x2048.rank) ∈ gather_S4x1536x2048_S8x1_S8x1536x2048_12_0_n_n_0_1_115362048.sKept := by
    decide
  show gather_S4x1536x2048_S8x1_S8x1536x2048_12_0_n_n_0_1_115362048.start (ix3 p k j) idx 2
      + gather_S4x1536x2048_S8x1_S8x1536x2048_12_0_n_n_0_1_115362048.batchCoord (ix3 p k j) 2
      + gather_S4x1536x2048_S8x1_S8x1536x2048_12_0_n_n_0_1_115362048.offCoord (ix3 p k j) 2 = _
  rw [GatherDims.batchCoord_eq_zero _ _ _ hb, Nat.add_zero]
  unfold GatherDims.start GatherDims.offCoord
  rw [dif_neg hm, dif_pos hk, Nat.zero_add]
  rfl

/-- The gathered weights at (p, k, j): the operand at (clamped start index of row p, k, j). -/
theorem gather_weights_apply {α : Type} (x : S4x1536x2048.Idx → α) (idx : IVec S8x1 32)
    (p : Fin 8) (k : Fin 1536) (j : Fin 2048) :
    Host.gather gather_S4x1536x2048_S8x1_S8x1536x2048_12_0_n_n_0_1_115362048 x idx (ix3 p k j)
      = x (ix3 (⟨min (idx (ix2 p (0 : Fin 1))).toInt.toNat 3, by omega⟩ : Fin 4) k j) := by
  unfold Host.gather
  congr 1
  funext a
  refine Fin.ext ?_
  match a with
  | ⟨0, _⟩ => exact weights_axis0 idx p k j
  | ⟨1, _⟩ => exact weights_axis1 idx p k j
  | ⟨2, _⟩ => exact weights_axis2 idx p k j

/-! ## The gather of bias rows, axis by axis

Operand [4, 2048], start indices [8, 1], result [8, 2048]: axis 0 collapsed and named by the start index, axis 1 the one offset
axis, carried by result axis 1. -/

/-- Operand axis 0: the start index of row p, read signed and clamped into [0, 3]. -/
theorem bias_axis0 {w : Nat} (idx : IVec S8x1 w) (p : Fin 8) (j : Fin 2048) :
    (gather_S4x2048_S8x1_S8x2048_1_0_n_n_0_1_12048.operandIdx (ix2 p j) idx 0).val
      = min (idx (ix2 p (0 : Fin 1))).toInt.toNat 3 := by
  have hb : (0 : Fin S4x2048.rank) ∉ gather_S4x2048_S8x1_S8x2048_1_0_n_n_0_1_12048.operandBatchingDims := List.not_mem_nil
  have hk : (0 : Fin S4x2048.rank) ∉ gather_S4x2048_S8x1_S8x2048_1_0_n_n_0_1_12048.sKept :=
    fun hmem => ((GatherDims.mem_sKept _ _).mp hmem).1 (List.mem_singleton.mpr rfl)
  have hm : (0 : Fin S4x2048.rank) ∈ gather_S4x2048_S8x1_S8x2048_1_0_n_n_0_1_12048.startIndexMap :=
    List.mem_singleton.mpr rfl
  show gather_S4x2048_S8x1_S8x2048_1_0_n_n_0_1_12048.start (ix2 p j) idx 0
      + gather_S4x2048_S8x1_S8x2048_1_0_n_n_0_1_12048.batchCoord (ix2 p j) 0
      + gather_S4x2048_S8x1_S8x2048_1_0_n_n_0_1_12048.offCoord (ix2 p j) 0 = _
  rw [GatherDims.batchCoord_eq_zero _ _ _ hb, GatherDims.offCoord_eq_zero _ _ _ hk, Nat.add_zero]
  unfold GatherDims.start
  rw [dif_pos hm]
  have hrow : gather_S4x2048_S8x1_S8x2048_1_0_n_n_0_1_12048.siIdx (ix2 p j)
      ⟨List.idxOf (0 : Fin S4x2048.rank) gather_S4x2048_S8x1_S8x2048_1_0_n_n_0_1_12048.startIndexMap,
        List.idxOf_lt_length_iff.2 hm⟩ = ix2 p (0 : Fin 1) := by
    funext b
    refine Fin.ext ?_
    match b with
    | ⟨0, _⟩ => rfl
    | ⟨1, _⟩ => rfl
  rw [hrow]
  rfl

/-- Operand axis 1 is the offset axis: the result's own coordinate on axis 1. -/
theorem bias_axis1 {w : Nat} (idx : IVec S8x1 w) (p : Fin 8) (j : Fin 2048) :
    (gather_S4x2048_S8x1_S8x2048_1_0_n_n_0_1_12048.operandIdx (ix2 p j) idx 1).val = j.val := by
  have hb : (1 : Fin S4x2048.rank) ∉ gather_S4x2048_S8x1_S8x2048_1_0_n_n_0_1_12048.operandBatchingDims := List.not_mem_nil
  have hm : ¬(1 : Fin S4x2048.rank) ∈ gather_S4x2048_S8x1_S8x2048_1_0_n_n_0_1_12048.startIndexMap := by decide
  have hk : (1 : Fin S4x2048.rank) ∈ gather_S4x2048_S8x1_S8x2048_1_0_n_n_0_1_12048.sKept := by decide
  show gather_S4x2048_S8x1_S8x2048_1_0_n_n_0_1_12048.start (ix2 p j) idx 1
      + gather_S4x2048_S8x1_S8x2048_1_0_n_n_0_1_12048.batchCoord (ix2 p j) 1
      + gather_S4x2048_S8x1_S8x2048_1_0_n_n_0_1_12048.offCoord (ix2 p j) 1 = _
  rw [GatherDims.batchCoord_eq_zero _ _ _ hb, Nat.add_zero]
  unfold GatherDims.start GatherDims.offCoord
  rw [dif_neg hm, dif_pos hk, Nat.zero_add]
  rfl

/-- The gathered bias at (p, j): the operand at (clamped start index of row p, j). -/
theorem gather_bias_apply {α : Type} (x : S4x2048.Idx → α) (idx : IVec S8x1 32) (p : Fin 8) (j : Fin 2048) :
    Host.gather gather_S4x2048_S8x1_S8x2048_1_0_n_n_0_1_12048 x idx (ix2 p j)
      = x (ix2 (⟨min (idx (ix2 p (0 : Fin 1))).toInt.toNat 3, by omega⟩ : Fin 4) j) := by
  unfold Host.gather
  congr 1
  funext a
  refine Fin.ext ?_
  match a with
  | ⟨0, _⟩ => exact bias_axis0 idx p j
  | ⟨1, _⟩ => exact bias_axis1 idx p j

/-! ## The start index of a row, on the admitted domain

The program wraps the index word (a negative word has 4 added) and lays the result out as a column. A word that is a natural
number below 4 is not negative when read signed, so the wrap keeps it; read signed and made a natural number again it is itself,
and the clamp into [0, 3] keeps it too. -/

/-- A 32-bit word below 4 reads the same signed as unsigned. -/
theorem toInt_of_lt_four {v : BitVec 32} (hv : v.toNat < 4) : v.toInt = (v.toNat : Int) :=
  BitVec.toInt_eq_toNat_of_lt (by omega)

/-- A 32-bit word below 4 is not below zero read signed. -/
theorem not_slt_zero {v : BitVec 32} (hv : v.toNat < 4) : ¬IntOp.cmpi .slt v 0#32 = 1#1 := by
  rw [IntOp.cmpi_slt, toInt_of_lt_four hv, BitVec.toInt_zero]
  omega

/-- The wrap in front of the weights' gather keeps a word below 4. -/
theorem wrap_weights (x1 : (⟨S8, .i32⟩ : BufTy).Contents (Elt Ideal)) (p : Fin 8) (hp : (x1 (ix1 p)).toNat < 4) :
    Read.val_main_v4 (F := Ideal) x1 (ix1 p) = x1 (ix1 p) := by
  rw [Read.val_main_v4_apply, Read.val_main_v1_apply, Read.val_main_v0_apply, Read.val_main_c_apply,
    eq_zero_of_ne_one (not_slt_zero hp), select_zero]

/-- The wrap in front of the bias' gather keeps a word below 4. -/
theorem wrap_bias (x1 : (⟨S8, .i32⟩ : BufTy).Contents (Elt Ideal)) (p : Fin 8) (hp : (x1 (ix1 p)).toNat < 4) :
    Read.val_main_v11 (F := Ideal) x1 (ix1 p) = x1 (ix1 p) := by
  rw [Read.val_main_v11_apply, Read.val_main_v8_apply, Read.val_main_v7_apply, Read.val_main_c_1_apply,
    eq_zero_of_ne_one (not_slt_zero hp), select_zero]

/-- Row p of the weights' start-index column reads entry p of the wrapped index vector. -/
theorem column_row_weights (p : Fin 8) : Read.idx_main_v5 (ix2 p (0 : Fin 1)) = ix1 p :=
  funext fun a => Fin.ext (by match a with | ⟨0, _⟩ => rfl)

/-- Row p of the bias' start-index column reads entry p of the wrapped index vector. -/
theorem column_row_bias (p : Fin 8) : Read.idx_main_v12 (ix2 p (0 : Fin 1)) = ix1 p :=
  funext fun a => Fin.ext (by match a with | ⟨0, _⟩ => rfl)

/-- A word below 4, read signed, made natural and clamped into [0, 3], is the specification's organism. -/
theorem clamp_eq_organism (x1 : (⟨S8, .i32⟩ : BufTy).Contents (Elt Ideal)) (p : Fin 8) (hp : (x1 (ix1 p)).toNat < 4)
    (v : BitVec 32) (hv : v = x1 (ix1 p)) (hlt : min v.toInt.toNat 3 < 4) :
    (⟨min v.toInt.toNat 3, hlt⟩ : Fin 4) = Cert.Spec.organism x1 p := by
  subst hv
  refine Fin.ext ?_
  show min (x1 (ix1 p)).toInt.toNat 3 = (Cert.Spec.organism x1 p).val
  rw [Cert.Spec.organism_val x1 p hp, toInt_of_lt_four hp, Int.toNat_natCast]
  exact Nat.min_eq_left (by omega)

/-- The gathered weights of batch row p are the weights of p's organism. -/
theorem weights_row (x1 : (⟨S8, .i32⟩ : BufTy).Contents (Elt Ideal)) (x2 : (⟨S4x1536x2048, .f32⟩ : BufTy).Contents (Elt Ideal))
    (p : Fin 8) (k : Fin 1536) (j : Fin 2048) (hp : (x1 (ix1 p)).toNat < 4) :
    Read.val_main_v6 (F := Ideal) x1 x2 (ix3 p k j) = x2 (ix3 (Cert.Spec.organism x1 p) k j) := by
  show Host.gather gather_S4x1536x2048_S8x1_S8x1536x2048_12_0_n_n_0_1_115362048 x2 (Read.val_main_v5 (F := Ideal) x1) (ix3 p k j) = _
  rw [gather_weights_apply]
  refine congrArg (fun o => x2 (ix3 o k j)) (clamp_eq_organism x1 p hp _ ?_ _)
  rw [Read.val_main_v5_apply, column_row_weights, wrap_weights x1 p hp]

/-- The gathered bias of batch row p is the bias of p's organism. -/
theorem bias_row (x1 : (⟨S8, .i32⟩ : BufTy).Contents (Elt Ideal)) (x3 : (⟨S4x2048, .f32⟩ : BufTy).Contents (Elt Ideal))
    (p : Fin 8) (j : Fin 2048) (hp : (x1 (ix1 p)).toNat < 4) :
    Read.val_main_v13 (F := Ideal) x1 x3 (ix2 p j) = x3 (ix2 (Cert.Spec.organism x1 p) j) := by
  show Host.gather gather_S4x2048_S8x1_S8x2048_1_0_n_n_0_1_12048 x3 (Read.val_main_v12 (F := Ideal) x1) (ix2 p j) = _
  rw [gather_bias_apply]
  refine congrArg (fun o => x3 (ix2 o j)) (clamp_eq_organism x1 p hp _ ?_ _)
  rw [Read.val_main_v12_apply, column_row_bias, wrap_bias x1 p hp]

/-! ## The reference's result is the routed linear layer -/

/-- Where every index word is below 4, the reference's result is the specification, at every index. -/
theorem result_eq
    (x0 : (⟨S8x4096x1536, .f32⟩ : BufTy).Contents (Elt Ideal)) (x1 : (⟨S8, .i32⟩ : BufTy).Contents (Elt Ideal))
    (x2 : (⟨S4x1536x2048, .f32⟩ : BufTy).Contents (Elt Ideal)) (x3 : (⟨S4x2048, .f32⟩ : BufTy).Contents (Elt Ideal))
    (h : ∀ k : S8.Idx, (x1 k).toNat < 4) :
    Read.val_main_v17 (F := Ideal) x0 x1 x2 x3 = Cert.Spec.routed x0 x1 x2 x3 := by
  funext i
  obtain ⟨p, r, j, rfl⟩ : ∃ (p : Fin 8) (r : Fin 4096) (j : Fin 2048), i = ix3 p r j := ⟨i 0, i 1, i 2, eq_ix3 i⟩
  -- the contraction reads x at (p, r, k) and the gathered weights at (p, k, j); the two broadcasts read the gathered bias at (p, j)
  have el : ∀ k : Fin 1536, Read.lidx_main_v14 (ix3 p r j) k = ix3 p r k := fun k =>
    funext fun a => Fin.ext (by match a with | ⟨0, _⟩ => rfl | ⟨1, _⟩ => rfl | ⟨2, _⟩ => rfl)
  have er : ∀ k : Fin 1536, Read.ridx_main_v14 (ix3 p r j) k = ix3 p k j := fun k =>
    funext fun a => Fin.ext (by match a with | ⟨0, _⟩ => rfl | ⟨1, _⟩ => rfl | ⟨2, _⟩ => rfl)
  have eb : Read.idx_main_v15 (Read.idx_main_v16 (ix3 p r j)) = ix2 p j :=
    funext fun a => Fin.ext (by match a with | ⟨0, _⟩ => rfl | ⟨1, _⟩ => rfl)
  rw [Read.val_main_v17_apply, Read.val_main_v14_apply, Read.val_main_v16_apply, Read.val_main_v15_apply,
    Cert.Spec.routed_apply, eb, bias_row x1 x3 p j (h _)]
  show (∑ k : Fin 1536, _) + _ = _
  congr 1
  refine Finset.sum_congr rfl fun k _ => ?_
  rw [el, er, weights_row x1 x2 p k j (h _)]

end Cert.RefValue

end
-- ==== Proof.lean ====
/-
  The routed linear layer: 8 batch rows of 4096 positions with 1536 features, 4 organisms each with a [1536, 2048] weight
  matrix and a bias row, and an index word per batch row naming its organism. Both programs compute

      out[p, s, j] = (Σ k < 1536, x[p, s, k] · w[index[p], k, j]) + b[index[p], j]

  (Proof/Spec.lean), on the domain where every index word is an organism number, 0 ≤ index[p] < 4: outside it the reference
  itself indexes the weights out of range, and the kernel's weight and bias blocks, which the index words name, fall outside
  their arrays. The precondition says so (its last conjunct), and Proof/IndexRange.lean reads it back word by word.

  The kernel walks an 8 × 8 grid, point (p, q) producing rows 512·q … 512·q + 511 of batch row p from one weight block and
  one bias block chosen by index[p]; it narrows x and the weights to a 16-bit format before the product, which over the
  extended reals is the identity. Its blocks lie inside their arrays because index[p] < 4 (Proof/OkKernel.lean and
  Proof/OkKernelIdeal.lean: the frames' side condition), each point stores the product plus the bias over its whole block
  (Proof/KernelPayload.lean), and the 64 blocks tile the result (Proof/KernelValue.lean). The reference gathers the weights
  and the bias of each batch row's organism, after wrapping negative words and clamping, both of which keep a word in
  [0, 4), contracts and adds (Proof/RefValue.lean). The two results are the same sum of the same products plus the same
  bias entry, term by term: no law of the extended reals is needed, and nothing is asked of the float inputs.
-/
import proofs.«404798_j80315888435838_3_alg».proof.Defs
import proofs.«404798_j80315888435838_3_alg».proof.Proof.Gen.Kernel
import proofs.«404798_j80315888435838_3_alg».proof.Proof.Gen.Kernel.Frame
import proofs.«404798_j80315888435838_3_alg».proof.Proof.Gen.KernelIdeal
import proofs.«404798_j80315888435838_3_alg».proof.Proof.Gen.KernelIdeal.Frame
import proofs.«404798_j80315888435838_3_alg».proof.Proof.Gen.ReferenceIdeal
import proofs.«404798_j80315888435838_3_alg».proof.Proof.Gen.ReferenceIdeal.Run
import proofs.«404798_j80315888435838_3_alg».proof.Proof.Gen.ReferenceIdeal.Read
import proofs.«404798_j80315888435838_3_alg».proof.Proof.Gen.Pre_finite_inputs
import proofs.«404798_j80315888435838_3_alg».proof.Proof.OkKernel
import proofs.«404798_j80315888435838_3_alg».proof.Proof.OkKernelIdeal
import proofs.«404798_j80315888435838_3_alg».proof.Proof.KernelValue
import proofs.«404798_j80315888435838_3_alg».proof.Proof.RefValue
import Idealize.ShloMosaic.Adequacy
import Idealize.ShloMosaic.Init

noncomputable section

namespace Cert.Proof

open Idealize.ShloMosaic Idealize.SL.Sem

/-- The kernel runs and keeps its arguments: its blocks lie inside their arrays because the index words are below 4. -/
theorem frame_kernel : Cert.frame_Kernel :=
  fun m ρ h => Cert.Kernel.Gen.frame m ρ (Cert.Kernel.ok_of_pre m h)

/-- The same of the kernel read over the extended reals. -/
theorem frame_kernelIdeal : Cert.frame_KernelIdeal :=
  fun m ρ h => Cert.KernelIdeal.Gen.frame m ρ (Cert.KernelIdeal.ok_of_pre m h)

/-- The reference is a straight line of host operations: it runs and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories agreeing on the four arguments, both programs end with the routed linear layer of those arguments. -/
theorem algebraic : Cert.algebraic_KernelIdeal_ReferenceIdeal := by
  intro m ρ m' ρ' hpre hagree
  have hl : ∀ x, (Cert.KernelIdeal.Gen.tbl m 0 x).toNat < 4 := Cert.KernelIdeal.OkOfPre.table_lt m hpre
  refine ⟨fun c => Cert.KernelIdeal.Routed.spec m c,
    Cert.KernelIdeal.Routed.run m ρ (Cert.KernelIdeal.ok_of_pre m hpre) hl, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  refine Cert.RefValue.result_eq _ _ _ _ fun k => ?_
  rw [← Cert.KernelIdeal.Routed.table_eq m c]
  exact hl k

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
